-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S_ : Shape := ⟨0, ![]⟩

class Facts : Prop where
  bcast_S_S4x1024x384 : S_.BroadcastsInDim S4x1024x384 (![] : Fin 0 → Fin S4x1024x384.rank)
  reducesTo_S4x1024x384_S_d0_1_2 : S4x1024x384.ReducesTo [0, 1, 2] S_
  h_S_ : 0 < S_.numel
  bcast_S_S4x1024x32x384 : S_.BroadcastsInDim S4x1024x32x384 (![] : Fin 0 → Fin S4x1024x32x384.rank)
  reducesTo_S4x1024x32x384_S_d0_1_2_3 : S4x1024x32x384.ReducesTo [0, 1, 2, 3] S_
  bcast_S_S4x1024x32 : S_.BroadcastsInDim S4x1024x32 (![] : Fin 0 → Fin S4x1024x32.rank)
  reducesTo_S4x1024x32_S_d0_1_2 : S4x1024x32.ReducesTo [0, 1, 2] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_
  bcast_S_S384x384 : S_.BroadcastsInDim S384x384 (![] : Fin 0 → Fin S384x384.rank)
  reducesTo_S384x384_S_d0_1 : S384x384.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S384 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg4 : FVec F S384x384 .f32) (main_arg5 : FVec F S128x384 .f32) (main_arg6 : FVec F S384 .f32) (main_arg7 : FVec F S384 .f32) (main_v13 : IVec S_ 1) (main_v16 : IVec S4x1024x32x128 1) : IVec S_ 1 :=
  let main_c_5 : IVec S_ 1 := constantI S_ 1 1#1
  let main_v17 : IVec S_ 1 := (fun x v => Host.reduce IntOp.andi x v reducesTo_S4x1024x32x128_S_d0_1_2_3 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S128x384 .f32 := Host.absf main_arg5
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_v33

def fn {F : FTy → Type} [FloatOps F] (main_arg0 : FVec F S4x1024x384 .f32) (main_arg1 : FVec F S4x1024x32x384 .f32) (main_arg2 : FVec F S4x1024x32 .f32) (main_arg3 : FVec F S4x1024x32x128 .f32) (main_arg4 : FVec F S384x384 .f32) (main_arg5 : FVec F S128x384 .f32) (main_arg6 : FVec F S384 .f32) (main_arg7 : FVec F S384 .f32) : IVec S_ 1 :=
  let main_v0 : FVec F S4x1024x384 .f32 := Host.absf main_arg0
  let main_cst : FVec F S_ .f32 := constant S_ .f32 0x7F800000#32
  let main_v1 : FVec F S4x1024x384 .f32 := broadcastInDim S4x1024x384 ![] bcast_S_S4x1024x384 main_cst
  let main_v2 : IVec S4x1024x384 1 := cmpf .olt main_v0 main_v1
  let main_c : IVec S_ 1 := constantI S_ 1 1#1
  let main_v3 : IVec S_ 1 := (fun x v => Host.reduce IntOp.andi x v reducesTo_S4x1024x384_S_d0_1_2 h_S_) main_v2 main_c
  let main_v4 : FVec F S4x1024x32x384 .f32 := Host.absf main_arg1
  let main_cst_0 : FVec F S_ .f32 := constant S_ .f32 0x7F800000#32
  let main_v5 : FVec F S4x1024x32x384 .f32 := broadcastInDim S4x1024x32x384 ![] bcast_S_S4x1024x32x384 main_cst_0
  let main_v6 : IVec S4x1024x32x384 1 := cmpf .olt main_v4 main_v5
  let main_c_1 : IVec S_ 1 := constantI S_ 1 1#1
  let main_v7 : IVec S_ 1 := (fun x v => Host.reduce IntOp.andi x v reducesTo_S4x1024x32x384_S_d0_1_2_3 h_S_) main_v6 main_c_1
  let main_v8 : IVec S_ 1 := andi main_v3 main_v7
  let main_v9 : FVec F S4x1024x32 .f32 := Host.absf main_arg2
  let main_cst_2 : FVec F S_ .f32 := constant S_ .f32 0x7F800000#32
  let main_v10 : FVec F S4x1024x32 .f32 := broadcastInDim S4x1024x32 ![] bcast_S_S4x1024x32 main_cst_2
  let main_v11 : IVec S4x1024x32 1 := cmpf .olt main_v9 main_v10
  let main_c_3 : IVec S_ 1 := constantI S_ 1 1#1
  let main_v12 : IVec S_ 1 := (fun x v => Host.reduce IntOp.andi x v reducesTo_S4x1024x32_S_d0_1_2 h_S_) main_v11 main_c_3
  let main_v13 : IVec S_ 1 := andi main_v8 main_v12
  let main_v14 : FVec F S4x1024x32x128 .f32 := Host.absf main_arg3
  let main_cst_4 : FVec F S_ .f32 := constant S_ .f32 0x7F800000#32
  let main_v15 : FVec F S4x1024x32x128 .f32 := broadcastInDim S4x1024x32x128 ![] bcast_S_S4x1024x32x128 main_cst_4
  let main_v16 : IVec S4x1024x32x128 1 := cmpf .olt main_v14 main_v15
  fn_part1 (F := F) main_arg4 main_arg5 main_arg6 main_arg7 main_v13 main_v16
-- ==== Kernel.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S1x64x384 : Shape := ⟨3, ![1, 64, 384]⟩
abbrev S1x64x32x384 : Shape := ⟨4, ![1, 64, 32, 384]⟩
abbrev S1x64x32 : Shape := ⟨3, ![1, 64, 32]⟩
abbrev S1x64x32x128 : Shape := ⟨4, ![1, 64, 32, 128]⟩
abbrev S64x32x384 : Shape := ⟨3, ![64, 32, 384]⟩
abbrev S2048x384 : Shape := ⟨2, ![2048, 384]⟩
abbrev S64x384 : Shape := ⟨2, ![64, 384]⟩
abbrev S64x1x384 : Shape := ⟨3, ![64, 1, 384]⟩
abbrev S64x32x128 : Shape := ⟨3, ![64, 32, 128]⟩
abbrev S2048x128 : Shape := ⟨2, ![2048, 128]⟩
abbrev S64x32 : Shape := ⟨2, ![64, 32]⟩
abbrev S64x32x1 : Shape := ⟨3, ![64, 32, 1]⟩
abbrev S64 : Shape := ⟨1, ![64]⟩
abbrev S64x1 : Shape := ⟨2, ![64, 1]⟩
abbrev S1x384 : Shape := ⟨2, ![1, 384]⟩

abbrev nBuf : Space → Nat
  | .hbm => 9
  | .vmem => 14
  | .smem => 0
  | _ => 0

abbrev bufTy : (tb : Table) → Fin (tcTables nBuf tb) → BufTy
  | .hbm, ⟨0, _⟩ => ⟨S4x1024x384, .f32⟩
  | .hbm, ⟨1, _⟩ => ⟨S4x1024x32x384, .f32⟩
  | .hbm, ⟨2, _⟩ => ⟨S4x1024x32, .f32⟩
  | .hbm, ⟨3, _⟩ => ⟨S4x1024x32x128, .f32⟩
  | .hbm, ⟨4, _⟩ => ⟨S384x384, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S4x1024x384, .f32⟩
  | .local _ .vmem, ⟨0, _⟩ => ⟨S1x64x384, .f32⟩
  | .local _ .vmem, ⟨1, _⟩ => ⟨S1x64x384, .f32⟩
  | .local _ .vmem, ⟨2, _⟩ => ⟨S1x64x32x384, .f32⟩
  | .local _ .vmem, ⟨3, _⟩ => ⟨S1x64x32x384, .f32⟩
  | .local _ .vmem, ⟨4, _⟩ => ⟨S1x64x32, .f32⟩
  | .local _ .vmem, ⟨5, _⟩ => ⟨S1x64x32, .f32⟩
  | .local _ .vmem, ⟨6, _⟩ => ⟨S1x64x32x128, .f32⟩
  | .local _ .vmem, ⟨7, _⟩ => ⟨S1x64x32x128, .f32⟩
  | .local _ .vmem, ⟨8, _⟩ => ⟨S384x384, .f32⟩
  | .local _ .vmem, ⟨9, _⟩ => ⟨S128x384, .f32⟩
  | .local _ .vmem, ⟨10, _⟩ => ⟨S384, .f32⟩
  | .local _ .vmem, ⟨11, _⟩ => ⟨S384, .f32⟩
  | .local _ .vmem, ⟨12, _⟩ => ⟨S1x64x384, .f32⟩
  | .local _ .vmem, ⟨13, _⟩ => ⟨S1x64x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x64x32x384_S1x64x32x384_0_0_0_0 : ∀ a, (![0, 0, 0, 0] : Fin 4 → Nat) a + S1x64x32x384.size a ≤ S1x64x32x384.size a
  h_S1x64x32x384 : 0 < S1x64x32x384.numel
  shapeCasts_S1x64x32x384_S64x32x384 : S1x64x32x384.ShapeCasts S64x32x384
  bitsLt_bf16_f32 : FTy.bits .bf16 < FTy.bits .f32
  shapeCasts_S64x32x384_S2048x384 : S64x32x384.ShapeCasts S2048x384
  inb_S384x384_S384x384_0_0 : ∀ a, (![0, 0] : Fin 2 → Nat) a + S384x384.size a ≤ S384x384.size a
  h_S384x384 : 0 < S384x384.numel
  shapeCasts_S2048x384_S64x32x384 : S2048x384.ShapeCasts S64x32x384
  inb_S1x64x384_S1x64x384_0_0_0 : ∀ a, (![0, 0, 0] : Fin 3 → Nat) a + S1x64x384.size a ≤ S1x64x384.size a
  h_S1x64x384 : 0 < S1x64x384.numel
  shapeCasts_S1x64x384_S64x384 : S1x64x384.ShapeCasts S64x384
  shapeCasts_S64x384_S64x1x384 : S64x384.ShapeCasts S64x1x384
  broadcasts_S64x1x384_S64x32x384 : S64x1x384.Broadcasts S64x32x384
  inb_S1x64x32x128_S1x64x32x128_0_0_0_0 : ∀ a, (![0, 0, 0, 0] : Fin 4 → Nat) a + S1x64x32x128.size a ≤ S1x64x32x128.size a
  h_S1x64x32x128 : 0 < S1x64x32x128.numel
  shapeCasts_S1x64x32x128_S64x32x128 : S1x64x32x128.ShapeCasts S64x32x128
  shapeCasts_S64x32x128_S2048x128 : S64x32x128.ShapeCasts S2048x128
  inb_S128x384_S128x384_0_0 : ∀ a, (![0, 0] : Fin 2 → Nat) a + S128x384.size a ≤ S128x384.size a
  h_S128x384 : 0 < S128x384.numel
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S64x32x1 : S64x32.ShapeCasts S64x32x1
  broadcasts_S64x32x1_S64x32x384 : S64x32x1.Broadcasts S64x32x384
  reduces_S64x32x384_S64x384 : S64x32x384.Reduces [1] S64x384
  reduces_S64x384_S64 : S64x384.Reduces [1] S64
  shapeCasts_S64_S64x1 : S64.ShapeCasts S64x1
  broadcasts_S64x1_S64x384 : S64x1.Broadcasts S64x384
  inb_S384_S384_0 : ∀ a, (![0] : Fin 1 → Nat) a + S384.size a ≤ S384.size a
  h_S384 : 0 < S384.numel
  shapeCasts_S384_S1x384 : S384.ShapeCasts S1x384
  broadcasts_S1x384_S64x384 : S1x384.Broadcasts S64x384
  shapeCasts_S64x384_S1x64x384 : S64x384.ShapeCasts S1x64x384
  dot_S2048x384_S384x384_S2048x384_1_0_0_1_n_n_wf : DotDims.WF S2048x384 S384x384 S2048x384 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x384.size a ≤ S4x1024x384.size a
  hwx0_0 : ∀ i : grid0.Coords, EltTy.bits .f32 = 32 ∨ (Rect.block (s := S4x1024x384) S1x64x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32x384.size a ≤ S4x1024x32x384.size a
  hwx0_1 : ∀ i : grid0.Coords, EltTy.bits .f32 = 32 ∨ (Rect.block (s := S4x1024x32x384) S1x64x32x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32.size a ≤ S4x1024x32.size a
  hwx0_2 : ∀ i : grid0.Coords, EltTy.bits .f32 = 32 ∨ (Rect.block (s := S4x1024x32) S1x64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x32x128.size a ≤ S4x1024x32x128.size a
  hwx0_3 : ∀ i : grid0.Coords, EltTy.bits .f32 = 32 ∨ (Rect.block (s := S4x1024x32x128) S1x64x32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384.size a ≤ S384.size a
  hwx0_6 : ∀ i : grid0.Coords, EltTy.bits .f32 = 32 ∨ (Rect.block (s := S384) S384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384.size a ≤ S384.size a
  hwx0_7 : ∀ i : grid0.Coords, EltTy.bits .f32 = 32 ∨ (Rect.block (s := S384) S384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x384.size a ≤ S4x1024x384.size a
  hwx0_8 : ∀ i : grid0.Coords, EltTy.bits .f32 = 32 ∨ (Rect.block (s := S4x1024x384) S1x64x384.size (cc0_transform_8 i) (hinb0_8 i)).WholeWords (EltTy.packing .f32)

variable [Facts₀]

def dot_S2048x384_S384x384_S2048x384_1_0_0_1_n_n : DotDims S2048x384 S384x384 S2048x384 where
  lhsContracting := [1]
  rhsContracting := [0]
  lhsNonContracting := [0]
  rhsNonContracting := [1]
  lhsBatch := []
  rhsBatch := []
  wf := dot_S2048x384_S384x384_S2048x384_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S1x64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x32x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x64x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S4x1024x1x384 : Shape := ⟨4, ![4, 1024, 1, 384]⟩
abbrev S4x1024x32x1 : Shape := ⟨4, ![4, 1024, 32, 1]⟩
abbrev S_ : Shape := ⟨0, ![]⟩
abbrev S4x1024 : Shape := ⟨2, ![4, 1024]⟩
abbrev S4x1024x1 : Shape := ⟨3, ![4, 1024, 1]⟩
abbrev S1x1x384 : Shape := ⟨3, ![1, 1, 384]⟩

abbrev nBuf : Space → Nat
  | .hbm => 48
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x1024x32x384, .f32⟩
  | .hbm, ⟨2, _⟩ => ⟨S4x1024x32, .f32⟩
  | .hbm, ⟨3, _⟩ => ⟨S4x1024x32x128, .f32⟩
  | .hbm, ⟨4, _⟩ => ⟨S384x384, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S4x1024x32x384, .f32⟩
  | .hbm, ⟨9, _⟩ => ⟨S4x1024x1x384, .f32⟩
  | .hbm, ⟨10, _⟩ => ⟨S4x1024x32x384, .f32⟩
  | .hbm, ⟨11, _⟩ => ⟨S4x1024x32x384, .f32⟩
  | .hbm, ⟨12, _⟩ => ⟨S4x1024x32x384, .f32⟩
  | .hbm, ⟨13, _⟩ => ⟨S4x1024x32x384, .f32⟩
  | .hbm, ⟨14, _⟩ => ⟨S4x1024x32x1, .f32⟩
  | .hbm, ⟨15, _⟩ => ⟨S4x1024x32x384, .f32⟩
  | .hbm, ⟨16, _⟩ => ⟨S4x1024x32x384, .f32⟩
  | .hbm, ⟨17, _⟩ => ⟨S_, .f32⟩
  | .hbm, ⟨18, _⟩ => ⟨S4x1024x384, .f32⟩
  | .hbm, ⟨19, _⟩ => ⟨S_, .f32⟩
  | .hbm, ⟨20, _⟩ => ⟨S4x1024, .f32⟩
  | .hbm, ⟨21, _⟩ => ⟨S4x1024x1, .f32⟩
  | .hbm, ⟨22, _⟩ => ⟨S_, .f32⟩
  | .hbm, ⟨23, _⟩ => ⟨S4x1024x1, .f32⟩
  | .hbm, ⟨24, _⟩ => ⟨S4x1024x1, .f32⟩
  | .hbm, ⟨25, _⟩ => ⟨S4x1024x384, .f32⟩
  | .hbm, ⟨26, _⟩ => ⟨S4x1024x384, .f32⟩
  | .hbm, ⟨27, _⟩ => ⟨S4x1024x384, .f32⟩
  | .hbm, ⟨28, _⟩ => ⟨S_, .f32⟩
  | .hbm, ⟨29, _⟩ => ⟨S4x1024, .f32⟩
  | .hbm, ⟨30, _⟩ => ⟨S4x1024x1, .f32⟩
  | .hbm, ⟨31, _⟩ => ⟨S_, .f32⟩
  | .hbm, ⟨32, _⟩ => ⟨S4x1024x1, .f32⟩
  | .hbm, ⟨33, _⟩ => ⟨S4x1024x1, .f32⟩
  | .hbm, ⟨34, _⟩ => ⟨S4x1024x384, .f32⟩
  | .hbm, ⟨35, _⟩ => ⟨S4x1024x384, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S4x1024x384, .f32⟩
  | .hbm, ⟨41, _⟩ => ⟨S4x1024x384, .f32⟩
  | .hbm, ⟨42, _⟩ => ⟨S1x1x384, .f32⟩
  | .hbm, ⟨43, _⟩ => ⟨S4x1024x384, .f32⟩
  | .hbm, ⟨44, _⟩ => ⟨S4x1024x384, .f32⟩
  | .hbm, ⟨45, _⟩ => ⟨S1x1x384, .f32⟩
  | .hbm, ⟨46, _⟩ => ⟨S4x1024x384, .f32⟩
  | .hbm, ⟨47, _⟩ => ⟨S4x1024x384, .f32⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S4x1024x384_S4x1024x1x384_0_1_3 : S4x1024x384.BroadcastsInDim S4x1024x1x384 (![0, 1, 3] : Fin 3 → Fin S4x1024x1x384.rank)
  bcast_S4x1024x1x384_S4x1024x32x384_0_1_2_3 : S4x1024x1x384.BroadcastsInDim S4x1024x32x384 (![0, 1, 2, 3] : Fin 4 → Fin S4x1024x32x384.rank)
  bcast_S4x1024x32_S4x1024x32x1_0_1_2 : S4x1024x32.BroadcastsInDim S4x1024x32x1 (![0, 1, 2] : Fin 3 → Fin S4x1024x32x1.rank)
  bcast_S4x1024x32x1_S4x1024x32x384_0_1_2_3 : S4x1024x32x1.BroadcastsInDim S4x1024x32x384 (![0, 1, 2, 3] : Fin 4 → Fin S4x1024x32x384.rank)
  reducesTo_S4x1024x32x384_S4x1024x384_d2 : S4x1024x32x384.ReducesTo [2] S4x1024x384
  h_S_ : 0 < S_.numel
  reducesTo_S4x1024x384_S4x1024_d2 : S4x1024x384.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x384_0_1_2 : S4x1024x1.BroadcastsInDim S4x1024x384 (![0, 1, 2] : Fin 3 → Fin S4x1024x384.rank)
  bcast_S384_S1x1x384_2 : S384.BroadcastsInDim S1x1x384 (![2] : Fin 1 → Fin S1x1x384.rank)
  bcast_S1x1x384_S4x1024x384_0_1_2 : S1x1x384.BroadcastsInDim S4x1024x384 (![0, 1, 2] : Fin 3 → Fin S4x1024x384.rank)
  dot_S4x1024x32x384_S384x384_S4x1024x32x384_3_0_012_1_n_n_wf : DotDims.WF S4x1024x32x384 S384x384 S4x1024x32x384 [3] [0] [0, 1, 2] [1] [] []
  dot_S4x1024x32x128_S128x384_S4x1024x32x384_3_0_012_1_n_n_wf : DotDims.WF S4x1024x32x128 S128x384 S4x1024x32x384 [3] [0] [0, 1, 2] [1] [] []

variable [Facts₀]

def dot_S4x1024x32x384_S384x384_S4x1024x32x384_3_0_012_1_n_n : DotDims S4x1024x32x384 S384x384 S4x1024x32x384 where
  lhsContracting := [3]
  rhsContracting := [0]
  lhsNonContracting := [0, 1, 2]
  rhsNonContracting := [1]
  lhsBatch := []
  rhsBatch := []
  wf := dot_S4x1024x32x384_S384x384_S4x1024x32x384_3_0_012_1_n_n_wf
def dot_S4x1024x32x128_S128x384_S4x1024x32x384_3_0_012_1_n_n : DotDims S4x1024x32x128 S128x384 S4x1024x32x384 where
  lhsContracting := [3]
  rhsContracting := [0]
  lhsNonContracting := [0, 1, 2]
  rhsNonContracting := [1]
  lhsBatch := []
  rhsBatch := []
  wf := dot_S4x1024x32x128_S128x384_S4x1024x32x384_3_0_012_1_n_n_wf

class Facts : Prop extends Facts₀ where

variable [Facts]
-- ==== Proof.Spec.lean ====
/-
  The function both programs compute, one (batch, position) row at a time.

  For a centre row `ctr` (384 channels), its 32 neighbours' rows `srow k` (384 channels) and pair rows `zrow k`
  (128 channels), a mask `mrow k`, and the two projection matrices `Ws` (384 × 384) and `Wz` (128 × 384):

    rowAgg d  =  ∑ₖ ((∑_c srow k c · Ws c d) − ctr d) · (∑_z zrow k z · Wz z d) · mrow k

  is the masked sum over the neighbours of (projected neighbour − centre) gated by the projected pair row, and

    rowNorm a γ β d  =  (a d − μ) · rsqrt (σ² + ε) · γ d + β d,   μ = (∑ₑ a e) / 384,   σ² = (∑ₑ (a e − μ)²) / 384

  is the layer norm of a row `a` of 384 channels, the divisor and ε the two float literals both programs print.
  Nothing here needs the summands finite: both programs apply these operations in this order, so no sum is
  regrouped and nothing is distributed over one.
-/
import Idealize.ShloMosaic.PureOps.Ideal
import Idealize.ShloMosaic.Lib.ValueIdx

noncomputable section

open scoped BigOperators

namespace Cert.NeighborNorm

open Idealize.ShloMosaic Idealize.ShloMosaic.ValueIdx

/-- The channel count 384.0 as both programs print it. -/
abbrev chanCount : EReal := Ideal.ofBits .f32 0x43C00000#32
/-- The variance offset, the f32 nearest 1e-6, as both programs print it. -/
abbrev varEps : EReal := Ideal.ofBits .f32 0x358637BD#32

/-- The masked, gated sum over the 32 neighbours of one row, at channel `d`. -/
def rowAgg (srow : Fin 32 → Fin 384 → EReal) (zrow : Fin 32 → Fin 128 → EReal) (mrow : Fin 32 → EReal)
    (ctr : Fin 384 → EReal) (Ws : Fin 384 → Fin 384 → EReal) (Wz : Fin 128 → Fin 384 → EReal) (d : Fin 384) : EReal :=
  ∑ k : Fin 32, ((∑ c : Fin 384, srow k c * Ws c d) - ctr d) * (∑ z : Fin 128, zrow k z * Wz z d) * mrow k

/-- The mean of a row of 384 channels. -/
def rowMean (a : Fin 384 → EReal) : EReal := Ideal.div (∑ e : Fin 384, a e) chanCount

/-- The (biased) variance of a row of 384 channels. -/
def rowVar (a : Fin 384 → EReal) : EReal :=
  Ideal.div (∑ e : Fin 384, (a e - rowMean a) * (a e - rowMean a)) chanCount

/-- The layer norm of a row, scaled by `γ` and shifted by `β`, at channel `d`. -/
def rowNorm (a γ β : Fin 384 → EReal) (d : Fin 384) : EReal :=
  (a d - rowMean a) * Ideal.rsqrt (rowVar a + varEps) * γ d + β d

/-- The whole result: entry (b, n, d) is the layer norm over the channels of the row (b, n)'s neighbour sum. -/
def result (si : (⟨3, ![4, 1024, 384]⟩ : Shape).Idx → EReal) (sij : (⟨4, ![4, 1024, 32, 384]⟩ : Shape).Idx → EReal)
    (mij : (⟨3, ![4, 1024, 32]⟩ : Shape).Idx → EReal) (zij : (⟨4, ![4, 1024, 32, 128]⟩ : Shape).Idx → EReal)
    (Ws : (⟨2, ![384, 384]⟩ : Shape).Idx → EReal) (Wz : (⟨2, ![128, 384]⟩ : Shape).Idx → EReal)
    (γ β : (⟨1, ![384]⟩ : Shape).Idx → EReal) : (⟨3, ![4, 1024, 384]⟩ : Shape).Idx → EReal := fun i =>
  rowNorm (rowAgg (fun k c => sij (ix4 (i 0) (i 1) k c)) (fun k z => zij (ix4 (i 0) (i 1) k z)) (fun k => mij (ix3 (i 0) (i 1) k))
      (fun d => si (ix3 (i 0) (i 1) d)) (fun c d => Ws (ix2 c d)) (fun z d => Wz (ix2 z d)))
    (fun d => γ (ix1 d)) (fun d => β (ix1 d)) (i 2)

end Cert.NeighborNorm

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelBlock.lean ====
/-
  One grid point's block of the kernel, read at an index.

  The body loads a block of 64 rows. Its first stretch `k0_pay2` is, at row `r` and channel `d`, the row's `rowAgg`:
  the two matrix products are taken over the 64 · 32 neighbour rows laid out as one [2048, ·] matrix, and row
  `r · 32 + k` of that matrix is neighbour `k` of row `r`; the centre row and the mask are broadcast along the
  neighbour and channel axes; the sum over the neighbour axis closes it. The rest of the body is `rowNorm` of that row.
-/
import proofs.«123137_j24043226923188_1_alg».proof.Proof.Gen.KernelIdeal.Value
import proofs.«123137_j24043226923188_1_alg».proof.Proof.Spec
import proofs.«123137_j24043226923188_1_alg».proof.Proof.LibMatmulAt
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen Idealize.ShloMosaic Idealize.ShloMosaic.ValueIdx
open Cert.NeighborNorm

/-! ## The two sums of the body, at an index -/

/-- The sum over the neighbour axis of a [64, 32, 384] value, at (r, d). -/
theorem nbr_sum (v : FVec Ideal S64x32x384 .f32) (hφ : FKind.Formats .f32)
    (hacc : (0x00000000#32 : BitVec 32) = FKind.add.neutral .f32 hφ) (r : Fin 64) (d : Fin 384) :
    multiReduction .add [1] S64x384 v 0x00000000#32 reduces_S64x32x384_S64x384 hφ hacc (ix2 r d)
      = ∑ k : Fin 32, v (ix3 r k d) := by
  refine (Ideal.multiReduction_add_single v 0x00000000#32 reduces_S64x32x384_S64x384 hφ hacc (ix2 r d)).trans ?_
  refine Finset.sum_congr rfl fun k _ => congrArg v (funext fun a => Fin.ext ?_)
  match a with | ⟨0, _⟩ => rfl | ⟨1, _⟩ => rfl | ⟨2, _⟩ => rfl

/-- The sum over the channel axis of a [64, 384] value, at row r. -/
theorem chan_sum (v : FVec Ideal S64x384 .f32) (hφ : FKind.Formats .f32)
    (hacc : (0x00000000#32 : BitVec 32) = FKind.add.neutral .f32 hφ) (r : Fin 64) :
    multiReduction .add [1] S64 v 0x00000000#32 reduces_S64x384_S64 hφ hacc (ix1 r)
      = ∑ e : Fin 384, v (ix2 r e) := by
  refine (Ideal.multiReduction_add_single v 0x00000000#32 reduces_S64x384_S64 hφ hacc (ix1 r)).trans ?_
  refine Finset.sum_congr rfl fun e _ => congrArg v (funext fun a => Fin.ext ?_)
  match a with | ⟨0, _⟩ => rfl | ⟨1, _⟩ => rfl

/-! ## Where the two matrix products read their operands -/

theorem projL0 (i : S2048x384.Idx) (q : dot_S2048x384_S384x384_S2048x384_1_0_0_1_n_n.contr.Idx) :
    (dot_S2048x384_S384x384_S2048x384_1_0_0_1_n_n.lhsIdx i q 0).val = (i 0).val := by
  unfold DotDims.lhsIdx
  rw [dif_neg (show ¬(0 : Fin S2048x384.rank) ∈ dot_S2048x384_S384x384_S2048x384_1_0_0_1_n_n.lhsBatch by decide), dif_pos (show (0 : Fin S2048x384.rank) ∈ dot_S2048x384_S384x384_S2048x384_1_0_0_1_n_n.lhsNonContracting by decide)]
  rfl
theorem projL1 (i : S2048x384.Idx) (q : dot_S2048x384_S384x384_S2048x384_1_0_0_1_n_n.contr.Idx) :
    (dot_S2048x384_S384x384_S2048x384_1_0_0_1_n_n.lhsIdx i q 1).val = (q ⟨0, by decide⟩).val :=
  dot_S2048x384_S384x384_S2048x384_1_0_0_1_n_n.lhsIdx_val_of_single rfl i q
theorem projR0 (i : S2048x384.Idx) (q : dot_S2048x384_S384x384_S2048x384_1_0_0_1_n_n.contr.Idx) :
    (dot_S2048x384_S384x384_S2048x384_1_0_0_1_n_n.rhsIdx i q 0).val = (q ⟨0, by decide⟩).val :=
  dot_S2048x384_S384x384_S2048x384_1_0_0_1_n_n.rhsIdx_val_of_single rfl i q
theorem projR1 (i : S2048x384.Idx) (q : dot_S2048x384_S384x384_S2048x384_1_0_0_1_n_n.contr.Idx) :
    (dot_S2048x384_S384x384_S2048x384_1_0_0_1_n_n.rhsIdx i q 1).val = (i 1).val := by
  unfold DotDims.rhsIdx
  rw [dif_neg (show ¬(1 : Fin S384x384.rank) ∈ dot_S2048x384_S384x384_S2048x384_1_0_0_1_n_n.rhsBatch by decide), dif_pos (show (1 : Fin S384x384.rank) ∈ dot_S2048x384_S384x384_S2048x384_1_0_0_1_n_n.rhsNonContracting by decide)]
  rfl

theorem gateL0 (i : S2048x384.Idx) (q : dot_S2048x128_S128x384_S2048x384_1_0_0_1_n_n.contr.Idx) :
    (dot_S2048x128_S128x384_S2048x384_1_0_0_1_n_n.lhsIdx i q 0).val = (i 0).val := by
  unfold DotDims.lhsIdx
  rw [dif_neg (show ¬(0 : Fin S2048x128.rank) ∈ dot_S2048x128_S128x384_S2048x384_1_0_0_1_n_n.lhsBatch by decide), dif_pos (show (0 : Fin S2048x128.rank) ∈ dot_S2048x128_S128x384_S2048x384_1_0_0_1_n_n.lhsNonContracting by decide)]
  rfl
theorem gateL1 (i : S2048x384.Idx) (q : dot_S2048x128_S128x384_S2048x384_1_0_0_1_n_n.contr.Idx) :
    (dot_S2048x128_S128x384_S2048x384_1_0_0_1_n_n.lhsIdx i q 1).val = (q ⟨0, by decide⟩).val :=
  dot_S2048x128_S128x384_S2048x384_1_0_0_1_n_n.lhsIdx_val_of_single rfl i q
theorem gateR0 (i : S2048x384.Idx) (q : dot_S2048x128_S128x384_S2048x384_1_0_0_1_n_n.contr.Idx) :
    (dot_S2048x128_S128x384_S2048x384_1_0_0_1_n_n.rhsIdx i q 0).val = (q ⟨0, by decide⟩).val :=
  dot_S2048x128_S128x384_S2048x384_1_0_0_1_n_n.rhsIdx_val_of_single rfl i q
theorem gateR1 (i : S2048x384.Idx) (q : dot_S2048x128_S128x384_S2048x384_1_0_0_1_n_n.contr.Idx) :
    (dot_S2048x128_S128x384_S2048x384_1_0_0_1_n_n.rhsIdx i q 1).val = (i 1).val := by
  unfold DotDims.rhsIdx
  rw [dif_neg (show ¬(1 : Fin S128x384.rank) ∈ dot_S2048x128_S128x384_S2048x384_1_0_0_1_n_n.rhsBatch by decide), dif_pos (show (1 : Fin S128x384.rank) ∈ dot_S2048x128_S128x384_S2048x384_1_0_0_1_n_n.rhsNonContracting by decide)]
  rfl

/-- Row `r · 32 + k` of the [2048, ·] layout is neighbour `k` of row `r`. -/
def flatRow (r : Fin 64) (k : Fin 32) : Fin 2048 := ⟨r.val * 32 + k.val, by have := r.isLt; have := k.isLt; omega⟩

/-! ## The four operands of the gated difference, at (r, k, d) -/

/-- The projected neighbour: the product of the neighbour rows with `W_s`, at neighbour `k` of row `r`, channel `d`. -/
theorem proj_at (P0 : Vec Ideal S1x64x32x384 .f32) (P1 : Vec Ideal S384x384 .f32) (r : Fin 64) (k : Fin 32) (d : Fin 384) :
    (shapeCast S64x32x384 (matmul (F := Ideal) dot_S2048x384_S384x384_S2048x384_1_0_0_1_n_n none
        (shapeCast S2048x384 (truncf (F := Ideal) .bf16 (shapeCast S64x32x384 P0 shapeCasts_S1x64x32x384_S64x32x384) bitsLt_bf16_f32) shapeCasts_S64x32x384_S2048x384)
        (truncf (F := Ideal) .bf16 P1 bitsLt_bf16_f32) (constant (F := Ideal) S2048x384 .f32 0x00000000#32)) shapeCasts_S2048x384_S64x32x384) (ix3 r k d)
      = ∑ c : Fin 384, P0 (ix4 0 r k c) * P1 (ix2 c d) := by
  have hr := r.isLt; have hk := k.isLt; have hd := d.isLt
  refine (shapeCast_apply _ _ (ix3 r k d) (ix2 (flatRow r k) d) (by
    rw [Shape.rowMajor_val_two, Shape.rowMajor_val_three]
    show (r.val * 32 + k.val) * 384 + d.val = (r.val * 32 + k.val) * 384 + d.val; rfl)).trans ?_
  refine (MatmulAt.matmul_zero_at dot_S2048x384_S384x384_S2048x384_1_0_0_1_n_n rfl rfl projL0 projL1 projR0 projR1 none _ _ (flatRow r k) d).trans ?_
  refine Finset.sum_congr rfl fun c _ => ?_
  refine congrArg (· * P1 (ix2 c d)) ?_
  refine (shapeCast_apply _ _ (ix2 (flatRow r k) c) (ix3 r k c) (by
    rw [Shape.rowMajor_val_three, Shape.rowMajor_val_two]
    show (r.val * 32 + k.val) * 384 + c.val = (r.val * 32 + k.val) * 384 + c.val; rfl)).trans ?_
  exact shapeCast_apply P0 _ (ix3 r k c) (ix4 0 r k c) (by
    rw [Shape.rowMajor_val_four, Shape.rowMajor_val_three]
    show ((0 * 64 + r.val) * 32 + k.val) * 384 + c.val = (r.val * 32 + k.val) * 384 + c.val; omega)

/-- The gate: the product of the pair rows with `W_z`, at neighbour `k` of row `r`, channel `d`. -/
theorem gate_at (P3 : Vec Ideal S1x64x32x128 .f32) (P4 : Vec Ideal S128x384 .f32) (r : Fin 64) (k : Fin 32) (d : Fin 384) :
    (shapeCast S64x32x384 (matmul (F := Ideal) dot_S2048x128_S128x384_S2048x384_1_0_0_1_n_n none
        (shapeCast S2048x128 (truncf (F := Ideal) .bf16 (shapeCast S64x32x128 P3 shapeCasts_S1x64x32x128_S64x32x128) bitsLt_bf16_f32) shapeCasts_S64x32x128_S2048x128)
        (truncf (F := Ideal) .bf16 P4 bitsLt_bf16_f32) (constant (F := Ideal) S2048x384 .f32 0x00000000#32)) shapeCasts_S2048x384_S64x32x384) (ix3 r k d)
      = ∑ z : Fin 128, P3 (ix4 0 r k z) * P4 (ix2 z d) := by
  have hr := r.isLt; have hk := k.isLt; have hd := d.isLt
  refine (shapeCast_apply _ _ (ix3 r k d) (ix2 (flatRow r k) d) (by
    rw [Shape.rowMajor_val_two, Shape.rowMajor_val_three]
    show (r.val * 32 + k.val) * 384 + d.val = (r.val * 32 + k.val) * 384 + d.val; rfl)).trans ?_
  refine (MatmulAt.matmul_zero_at dot_S2048x128_S128x384_S2048x384_1_0_0_1_n_n rfl rfl gateL0 gateL1 gateR0 gateR1 none _ _ (flatRow r k) d).trans ?_
  refine Finset.sum_congr rfl fun z _ => ?_
  refine congrArg (· * P4 (ix2 z d)) ?_
  refine (shapeCast_apply _ _ (ix2 (flatRow r k) z) (ix3 r k z) (by
    rw [Shape.rowMajor_val_three, Shape.rowMajor_val_two]
    show (r.val * 32 + k.val) * 128 + z.val = (r.val * 32 + k.val) * 128 + z.val; rfl)).trans ?_
  exact shapeCast_apply P3 _ (ix3 r k z) (ix4 0 r k z) (by
    rw [Shape.rowMajor_val_four, Shape.rowMajor_val_three]
    show ((0 * 64 + r.val) * 32 + k.val) * 128 + z.val = (r.val * 32 + k.val) * 128 + z.val; omega)

/-- The centre row, broadcast along the neighbour axis. -/
theorem centre_at (P2 : Vec Ideal S1x64x384 .f32) (r : Fin 64) (k : Fin 32) (d : Fin 384) :
    (broadcastTo S64x32x384 (shapeCast S64x1x384 (shapeCast S64x384 P2 shapeCasts_S1x64x384_S64x384) shapeCasts_S64x384_S64x1x384)
        broadcasts_S64x1x384_S64x32x384) (ix3 r k d) = P2 (ix3 0 r d) := by
  refine (broadcastTo_apply _ _ (ix3 r k d) (ix3 r (0 : Fin 1) d) (fun a => match a with
    | ⟨0, _⟩ => by show r.val = (if (64 : Nat) = 1 then 0 else r.val); rw [if_neg (by decide)]
    | ⟨1, _⟩ => by show 0 = (if (1 : Nat) = 1 then 0 else k.val); rw [if_pos rfl]
    | ⟨2, _⟩ => by show d.val = (if (384 : Nat) = 1 then 0 else d.val); rw [if_neg (by decide)])).trans ?_
  refine (shapeCast_apply _ _ (ix3 r (0 : Fin 1) d) (ix2 r d) (by
    rw [Shape.rowMajor_val_two, Shape.rowMajor_val_three]
    show r.val * 384 + d.val = (r.val * 1 + 0) * 384 + d.val; omega)).trans ?_
  exact shapeCast_apply P2 _ (ix2 r d) (ix3 0 r d) (by
    rw [Shape.rowMajor_val_three, Shape.rowMajor_val_two]
    show (0 * 64 + r.val) * 384 + d.val = r.val * 384 + d.val; omega)

/-- The mask, broadcast along the channel axis. -/
theorem mask_at (P5 : Vec Ideal S1x64x32 .f32) (r : Fin 64) (k : Fin 32) (d : Fin 384) :
    (broadcastTo S64x32x384 (shapeCast S64x32x1 (shapeCast S64x32 P5 shapeCasts_S1x64x32_S64x32) shapeCasts_S64x32_S64x32x1)
        broadcasts_S64x32x1_S64x32x384) (ix3 r k d) = P5 (ix3 0 r k) := by
  refine (broadcastTo_apply _ _ (ix3 r k d) (ix3 r k (0 : Fin 1)) (fun a => match a with
    | ⟨0, _⟩ => by show r.val = (if (64 : Nat) = 1 then 0 else r.val); rw [if_neg (by decide)]
    | ⟨1, _⟩ => by show k.val = (if (32 : Nat) = 1 then 0 else k.val); rw [if_neg (by decide)]
    | ⟨2, _⟩ => by show 0 = (if (1 : Nat) = 1 then 0 else d.val); rw [if_pos rfl])).trans ?_
  refine (shapeCast_apply _ _ (ix3 r k (0 : Fin 1)) (ix2 r k) (by
    rw [Shape.rowMajor_val_two, Shape.rowMajor_val_three]
    show r.val * 32 + k.val = (r.val * 32 + k.val) * 1 + 0; omega)).trans ?_
  exact shapeCast_apply P5 _ (ix2 r k) (ix3 0 r k) (by
    rw [Shape.rowMajor_val_three, Shape.rowMajor_val_two]
    show (0 * 64 + r.val) * 32 + k.val = r.val * 32 + k.val; omega)

/-! ## The neighbour sum of the block -/

/-- The body's first stretch at row `r`, channel `d`, is the row's `rowAgg`, the row's operands read off the loaded blocks. -/
theorem pay2_at (P0 : Vec Ideal S1x64x32x384 .f32) (P1 : Vec Ideal S384x384 .f32) (P2 : Vec Ideal S1x64x384 .f32)
    (P3 : Vec Ideal S1x64x32x128 .f32) (P4 : Vec Ideal S128x384 .f32) (P5 : Vec Ideal S1x64x32 .f32) (r : Fin 64) (d : Fin 384) :
    k0_pay2 (F := Ideal) P0 P1 P2 P3 P4 P5 (ix2 r d)
      = rowAgg (fun k c => P0 (ix4 0 r k c)) (fun k z => P3 (ix4 0 r k z)) (fun k => P5 (ix3 0 r k))
          (fun e => P2 (ix3 0 r e)) (fun c e => P1 (ix2 c e)) (fun z e => P4 (ix2 z e)) d := by
  unfold k0_pay2 rowAgg
  refine (nbr_sum _ _ _ r d).trans ?_
  refine Finset.sum_congr rfl fun k _ => ?_
  exact congrArg₂ (· * ·) (congrArg₂ (· * ·) (congrArg₂ (· - ·) (proj_at P0 P1 r k d) (centre_at P2 r k d)) (gate_at P3 P4 r k d))
    (mask_at P5 r k d)

/-! ## The layer norm of the block -/

/-- The row mean, broadcast back along the channel axis, at (r, e): the mean of row `r`. -/
theorem mean_at (v : FVec Ideal S64x384 .f32) (hφ : FKind.Formats .f32)
    (hacc : (0x00000000#32 : BitVec 32) = FKind.add.neutral .f32 hφ) (r : Fin 64) (e : Fin 384) :
    (broadcastTo S64x384 (divf (F := Ideal) (shapeCast S64x1 (multiReduction .add [1] S64 v 0x00000000#32 reduces_S64x384_S64 hφ hacc) shapeCasts_S64_S64x1)
        (broadcast S64x1 (FloatOps.ofBits (F := Ideal) .f32 0x43C00000#32))) broadcasts_S64x1_S64x384) (ix2 r e)
      = rowMean (fun e' => v (ix2 r e')) := by
  refine (broadcastTo_apply _ _ (ix2 r e) (ix2 r (0 : Fin 1)) (fun a => match a with
    | ⟨0, _⟩ => by show r.val = (if (64 : Nat) = 1 then 0 else r.val); rw [if_neg (by decide)]
    | ⟨1, _⟩ => by show 0 = (if (1 : Nat) = 1 then 0 else e.val); rw [if_pos rfl])).trans ?_
  unfold rowMean
  refine congrArg (Ideal.div · chanCount) ?_
  refine (shapeCast_apply _ _ (ix2 r (0 : Fin 1)) (ix1 r) (by
    rw [Shape.rowMajor_val_one, Shape.rowMajor_val_two]
    show r.val = r.val * 1 + 0; omega)).trans ?_
  exact chan_sum v hφ hacc r

/-- What the body stores at (·, r, d) is the layer norm of row `r` of its first stretch, scaled and shifted by the two
    loaded channel vectors. -/
theorem block_at (P0 : Vec Ideal S1x64x32x384 .f32) (P1 : Vec Ideal S384x384 .f32) (P2 : Vec Ideal S1x64x384 .f32)
    (P3 : Vec Ideal S1x64x32x128 .f32) (P4 : Vec Ideal S128x384 .f32) (P5 : Vec Ideal S1x64x32 .f32)
    (P6 P7 : Vec Ideal S384 .f32) (y0 : Fin 1) (r : Fin 64) (d : Fin 384) :
    Cert.KernelIdeal.Value.E8 (F := Ideal) P0 P1 P2 P3 P4 P5 P6 P7 (ix3 y0 r d)
      = rowNorm (fun e => k0_pay2 (F := Ideal) P0 P1 P2 P3 P4 P5 (ix2 r e)) (fun e => P6 (ix1 e)) (fun e => P7 (ix1 e)) d := by
  have i0 : Cert.KernelIdeal.Value.ix8_0 (ix3 y0 r d) = ix2 r d := funext fun a => by match a with | ⟨0, _⟩ => rfl | ⟨1, _⟩ => rfl
  have i1 : Cert.KernelIdeal.Value.ix8_1 (ix3 y0 r d) = ix1 r := funext fun a => by match a with | ⟨0, _⟩ => rfl
  have i2 : Cert.KernelIdeal.Value.ix8_2 (ix3 y0 r d) = ix1 r := funext fun a => by match a with | ⟨0, _⟩ => rfl
  have i3 : Cert.KernelIdeal.Value.ix8_3 (ix3 y0 r d) = ix1 d := funext fun a => by match a with | ⟨0, _⟩ => rfl
  have i4 : Cert.KernelIdeal.Value.ix8_4 (ix3 y0 r d) = ix1 d := funext fun a => by match a with | ⟨0, _⟩ => rfl
  unfold rowNorm rowVar rowMean
  simp only [Cert.KernelIdeal.Value.E8, i0, i1, i2, i3, i4, Ideal.addf_def, Ideal.mulf_def, Ideal.subf_def, Ideal.divf_def,
    Ideal.rsqrt_def, Ideal.ofBits_def]
  refine congrArg₂ (fun s v => (k0_pay2 (F := Ideal) P0 P1 P2 P3 P4 P5 (ix2 r d) - Ideal.div s chanCount)
      * Ideal.rsqrt (Ideal.div v chanCount + varEps) * P6 (ix1 d) + P7 (ix1 d))
    (chan_sum _ _ _ r) ((chan_sum _ _ _ r).trans (Finset.sum_congr rfl fun e _ => ?_))
  refine congrArg₂ (· * ·) ?_ ?_ <;>
    exact congrArg (k0_pay2 (F := Ideal) P0 P1 P2 P3 P4 P5 (ix2 r e) - ·) (mean_at (k0_pay2 (F := Ideal) P0 P1 P2 P3 P4 P5) _ _ r e)

end Cert.KernelIdeal.Block

end
-- ==== Proof.KernelArray.lean ====
/-
  From one grid point's block to the whole result array.

  The grid is 4 × 16: point (b, p) stages rows 64·p … 64·p + 63 of batch b of every per-row operand, and the two
  projection matrices and the two channel vectors whole. What the body stores at (·, r, d) is `rowNorm (rowAgg …)` of the
  loaded blocks; a loaded block at (·, r, ·) is the operand at (b, 64·p + r, ·), so what point (b, p) writes back is the
  block (b, p) of `result` of the argument arrays. The 64 blocks tile the [4, 1024, 384] array (row n lies in the block of
  point (b, n / 64)), so after the run the array is `result` of the arguments.
-/
import proofs.«123137_j24043226923188_1_alg».proof.Proof.KernelBlock

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.NeighborNorm

/-- `rowNorm (rowAgg …)` depends on its operands only through their entries. -/
theorem rowOut_congr {s s' : Fin 32 → Fin 384 → EReal} {z z' : Fin 32 → Fin 128 → EReal} {mk mk' : Fin 32 → EReal}
    {ct ct' : Fin 384 → EReal} {ws ws' : Fin 384 → Fin 384 → EReal} {wz wz' : Fin 128 → Fin 384 → EReal}
    {g g' b b' : Fin 384 → EReal} {d d' : Fin 384}
    (hs : ∀ k c, s k c = s' k c) (hz : ∀ k c, z k c = z' k c) (hm : ∀ k, mk k = mk' k) (hc : ∀ e, ct e = ct' e)
    (hws : ∀ c e, ws c e = ws' c e) (hwz : ∀ c e, wz c e = wz' c e) (hg : ∀ e, g e = g' e) (hb : ∀ e, b e = b' e) (hd : d = d') :
    rowNorm (rowAgg s z mk ct ws wz) g b d = rowNorm (rowAgg s' z' mk' ct' ws' wz') g' b' d' := by
  obtain rfl : s = s' := funext fun k => funext fun c => hs k c
  obtain rfl : z = z' := funext fun k => funext fun c => hz k c
  obtain rfl : mk = mk' := funext hm
  obtain rfl : ct = ct' := funext hc
  obtain rfl : ws = ws' := funext fun c => funext fun e => hws c e
  obtain rfl : wz = wz' := funext fun c => funext fun e => hwz c e
  obtain rfl : g = g' := funext hg
  obtain rfl : b = b' := funext hb
  subst hd
  rfl

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What the body leaves in the output block at (·, r, d), from the blocks it loaded. -/
theorem out_at (x0 : Vec Ideal S1x64x384 .f32) (x1 : Vec Ideal S1x64x32x384 .f32) (x2 : Vec Ideal S1x64x32 .f32)
    (x3 : Vec Ideal S1x64x32x128 .f32) (x4 : Vec Ideal S384x384 .f32) (x5 : Vec Ideal S128x384 .f32) (x6 x7 : Vec Ideal S384 .f32)
    (y0 : Fin 1) (r : Fin 64) (d : Fin 384) :
    out0_8 (F := Ideal) x0 x1 x2 x3 x4 x5 x6 x7 (ix3 y0 r d)
      = rowNorm (rowAgg (fun k c => x1 (ix4 0 r k c)) (fun k z => x3 (ix4 0 r k z)) (fun k => x2 (ix3 0 r k))
          (fun e => x0 (ix3 0 r e)) (fun c e => x4 (ix2 c e)) (fun z e => x5 (ix2 z e)))
        (fun e => x6 (ix1 e)) (fun e => x7 (ix1 e)) d := by
  unfold out0_8
  simp only [View.ld_unit_zero (S := S1x64x32x384) zeros4, View.ld_unit_zero (S := S384x384) zeros2,
    View.ld_unit_zero (S := S1x64x384) zeros3, View.ld_unit_zero (S := S1x64x32x128) zeros4,
    View.ld_unit_zero (S := S128x384) zeros2, View.ld_unit_zero (S := S1x64x32) zeros3, View.ld_unit_zero (S := S384) zeros1]
  refine (Cert.KernelIdeal.Value.canon8_eq (F := Ideal) x1 x4 x0 x3 x5 x2 x6 x7 (ix3 y0 r d)).trans ?_
  refine (Cert.KernelIdeal.Block.block_at x1 x4 x0 x3 x5 x2 x6 x7 y0 r d).trans ?_
  exact congrArg (fun a => rowNorm a (fun e => x6 (ix1 e)) (fun e => x7 (ix1 e)) d)
    (funext fun e => Cert.KernelIdeal.Block.pay2_at x1 x4 x0 x3 x5 x2 r e)

variable (m : (ℓ : Loc nD τ sig) → Buf (Elt Ideal) ℓ) (ρ : Dev nD → PrngReg)

/-- `result` of the argument arrays as the region finds them. -/
abbrev whole (c : Dev nD) : S4x1024x384.Idx → EReal :=
  result (V m c main_arg0) (V m c main_arg1) (V m c main_arg2) (V m c main_arg3) (V m c main_arg4) (V m c main_arg5)
    (V m c main_arg6) (V m c main_arg7)

/-- The printed index maps over the 64 grid points: every per-row operand's block moves with the output's on the batch and
    row axes and sits at 0 on its other axes; the matrices and channel vectors sit at 0; the output's block indices stay
    inside the 4 × 16 grid of blocks. -/
theorem idx_facts : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_1.index t (0 : Fin 4) = win0_8.index t (0 : Fin 3) ∧ win0_1.index t (1 : Fin 4) = win0_8.index t (1 : Fin 3)
    ∧ win0_1.index t (2 : Fin 4) = 0 ∧ win0_1.index t (3 : Fin 4) = 0
    ∧ win0_2.index t (0 : Fin 3) = win0_8.index t (0 : Fin 3) ∧ win0_2.index t (1 : Fin 3) = win0_8.index t (1 : Fin 3)
    ∧ win0_2.index t (2 : Fin 3) = 0
    ∧ win0_3.index t (0 : Fin 4) = win0_8.index t (0 : Fin 3) ∧ win0_3.index t (1 : Fin 4) = win0_8.index t (1 : Fin 3)
    ∧ win0_3.index t (2 : Fin 4) = 0 ∧ win0_3.index t (3 : Fin 4) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0
    ∧ win0_8.index t (2 : Fin 3) = 0 :=
  (by decide +kernel : ∀ t : Fin grid0.N, _)

/-- Every block of the 4 × 16 grid of blocks is some point's. -/
theorem idx_onto : ∀ (q0 : Fin 4) (q1 : Fin 16), ∃ t : Fin cfg0.N, win0_8.index t = ![q0.val, q1.val, 0] :=
  (by decide +kernel : ∀ (q0 : Fin 4) (q1 : Fin 16), ∃ t : Fin grid0.N, win0_8.index t = ![q0.val, q1.val, 0])

/-- WHAT POINT `t` WRITES BACK is block `t` of `result` of the argument arrays: the body's stored block is
    `rowNorm (rowAgg …)` of the loaded blocks (`out_at`), and each loaded block, read at (·, r, ·), is its array read at
    (b, 64·p + r, ·) with (b, p) the output's block index. -/
theorem flushed_eq (c : Dev nD) (t : Fin cfg0.N) :
    (dats m 0 c).flushed 8 t = ((cfg0.win 8).blk t).view.read (Elt Ideal) (whole m c) := by
  rw [Cert.KernelIdeal.Value.flushed8]
  obtain ⟨a00, a01, a02, a10, a11, a12, a13, a20, a21, a22, a30, a31, a32, a33, a40, a41, a50, a51, a60, a70, a82⟩ := idx_facts t
  funext j
  have hj0 : (j 0).val < 1 := (j 0).isLt
  have hj1 : (j 1).val < 64 := (j 1).isLt
  have hj2 : (j 2).val < 384 := (j 2).isLt
  have ej : (j : S1x64x384.Idx) = ix3 (⟨(j 0).val, hj0⟩ : Fin 1) (⟨(j 1).val, hj1⟩ : Fin 64) (⟨(j 2).val, hj2⟩ : Fin 384) :=
    funext fun a => by match a with | ⟨0, _⟩ => rfl | ⟨1, _⟩ => rfl | ⟨2, _⟩ => rfl
  show out0_8 (iblk m c 0 t) (iblk m c 1 t) (iblk m c 2 t) (iblk m c 3 t) (iblk m c 4 t) (iblk m c 5 t) (iblk m c 6 t) (iblk m c 7 t) j
    = whole m c (((cfg0.win 8).blk t).view.emb j)
  refine ((congrArg (out0_8 (iblk m c 0 t) (iblk m c 1 t) (iblk m c 2 t) (iblk m c 3 t) (iblk m c 4 t) (iblk m c 5 t) (iblk m c 6 t) (iblk m c 7 t)) ej).trans
    (out_at (iblk m c 0 t) (iblk m c 1 t) (iblk m c 2 t) (iblk m c 3 t) (iblk m c 4 t) (iblk m c 5 t) (iblk m c 6 t) (iblk m c 7 t)
      ⟨(j 0).val, hj0⟩ ⟨(j 1).val, hj1⟩ ⟨(j 2).val, hj2⟩)).trans ?_
  show _ = result (V m c main_arg0) (V m c main_arg1) (V m c main_arg2) (V m c main_arg3) (V m c main_arg4) (V m c main_arg5)
    (V m c main_arg6) (V m c main_arg7) (((cfg0.win 8).blk t).view.emb j)
  unfold result
  refine rowOut_congr ?_ ?_ ?_ ?_ ?_ ?_ ?_ ?_ ?_
  · intro k e
    show V m c main_arg1 (((cfg0.win 1).blk t).view.emb (ix4 (0 : Fin 1) (⟨(j 1).val, hj1⟩ : Fin 64) k e)) = V m c main_arg1 _
    refine congrArg (V m c main_arg1) (funext fun a => Fin.ext ?_)
    match a with
    | ⟨0, _⟩ => show win0_1.index t (0 : Fin 4) * 1 + 1 * 0 = win0_8.index t (0 : Fin 3) * 1 + 1 * (j 0).val; omega
    | ⟨1, _⟩ => show win0_1.index t (1 : Fin 4) * 64 + 1 * (j 1).val = win0_8.index t (1 : Fin 3) * 64 + 1 * (j 1).val; omega
    | ⟨2, _⟩ => show win0_1.index t (2 : Fin 4) * 32 + 1 * k.val = k.val; omega
    | ⟨3, _⟩ => show win0_1.index t (3 : Fin 4) * 384 + 1 * e.val = e.val; omega
  · intro k e
    show V m c main_arg3 (((cfg0.win 3).blk t).view.emb (ix4 (0 : Fin 1) (⟨(j 1).val, hj1⟩ : Fin 64) k e)) = V m c main_arg3 _
    refine congrArg (V m c main_arg3) (funext fun a => Fin.ext ?_)
    match a with
    | ⟨0, _⟩ => show win0_3.index t (0 : Fin 4) * 1 + 1 * 0 = win0_8.index t (0 : Fin 3) * 1 + 1 * (j 0).val; omega
    | ⟨1, _⟩ => show win0_3.index t (1 : Fin 4) * 64 + 1 * (j 1).val = win0_8.index t (1 : Fin 3) * 64 + 1 * (j 1).val; omega
    | ⟨2, _⟩ => show win0_3.index t (2 : Fin 4) * 32 + 1 * k.val = k.val; omega
    | ⟨3, _⟩ => show win0_3.index t (3 : Fin 4) * 128 + 1 * e.val = e.val; omega
  · intro k
    show V m c main_arg2 (((cfg0.win 2).blk t).view.emb (ix3 (0 : Fin 1) (⟨(j 1).val, hj1⟩ : Fin 64) k)) = V m c main_arg2 _
    refine congrArg (V m c main_arg2) (funext fun a => Fin.ext ?_)
    match a with
    | ⟨0, _⟩ => show win0_2.index t (0 : Fin 3) * 1 + 1 * 0 = win0_8.index t (0 : Fin 3) * 1 + 1 * (j 0).val; omega
    | ⟨1, _⟩ => show win0_2.index t (1 : Fin 3) * 64 + 1 * (j 1).val = win0_8.index t (1 : Fin 3) * 64 + 1 * (j 1).val; omega
    | ⟨2, _⟩ => show win0_2.index t (2 : Fin 3) * 32 + 1 * k.val = k.val; omega
  · intro e
    show V m c main_arg0 (((cfg0.win 0).blk t).view.emb (ix3 (0 : Fin 1) (⟨(j 1).val, hj1⟩ : Fin 64) e)) = V m c main_arg0 _
    refine congrArg (V m c main_arg0) (funext fun a => Fin.ext ?_)
    match a with
    | ⟨0, _⟩ => show win0_0.index t (0 : Fin 3) * 1 + 1 * 0 = win0_8.index t (0 : Fin 3) * 1 + 1 * (j 0).val; omega
    | ⟨1, _⟩ => show win0_0.index t (1 : Fin 3) * 64 + 1 * (j 1).val = win0_8.index t (1 : Fin 3) * 64 + 1 * (j 1).val; omega
    | ⟨2, _⟩ => show win0_0.index t (2 : Fin 3) * 384 + 1 * e.val = e.val; omega
  · intro k e
    show V m c main_arg4 (((cfg0.win 4).blk t).view.emb (ix2 k e)) = V m c main_arg4 _
    refine congrArg (V m c main_arg4) (funext fun a => Fin.ext ?_)
    match a with
    | ⟨0, _⟩ => show win0_4.index t (0 : Fin 2) * 384 + 1 * k.val = k.val; omega
    | ⟨1, _⟩ => show win0_4.index t (1 : Fin 2) * 384 + 1 * e.val = e.val; omega
  · intro k e
    show V m c main_arg5 (((cfg0.win 5).blk t).view.emb (ix2 k e)) = V m c main_arg5 _
    refine congrArg (V m c main_arg5) (funext fun a => Fin.ext ?_)
    match a with
    | ⟨0, _⟩ => show win0_5.index t (0 : Fin 2) * 128 + 1 * k.val = k.val; omega
    | ⟨1, _⟩ => show win0_5.index t (1 : Fin 2) * 384 + 1 * e.val = e.val; omega
  · intro e
    show V m c main_arg6 (((cfg0.win 6).blk t).view.emb (ix1 e)) = V m c main_arg6 _
    refine congrArg (V m c main_arg6) (funext fun a => Fin.ext ?_)
    match a with
    | ⟨0, _⟩ => show win0_6.index t (0 : Fin 1) * 384 + 1 * e.val = e.val; omega
  · intro e
    show V m c main_arg7 (((cfg0.win 7).blk t).view.emb (ix1 e)) = V m c main_arg7 _
    refine congrArg (V m c main_arg7) (funext fun a => Fin.ext ?_)
    match a with
    | ⟨0, _⟩ => show win0_7.index t (0 : Fin 1) * 384 + 1 * e.val = e.val; omega
  · refine Fin.ext ?_
    show (j 2).val = win0_8.index t (2 : Fin 3) * 384 + 1 * (j 2).val
    omega

/-- An index of the array is in point `t`'s block iff each coordinate is in the block's range on its axis. -/
theorem mem_blk (t : Fin cfg0.N) (i : S4x1024x384.Idx) :
    i ∈ ((cfg0.win 8).blk t).view.set ↔ ∀ a : Fin 3, win0_8.index t a * S1x64x384.size a ≤ (i a).val ∧ (i a).val < win0_8.index t a * S1x64x384.size a + S1x64x384.size a := by
  show i ∈ ((View.whole main_v0).slice (win0_8.rect t)).set ↔ _
  rw [View.set_slice_whole, Rect.mem_set_unit]
  exact Iff.rfl

/-- The 64 blocks cover the array: (b, n, d) lies in the block of the point whose block index is (b, n / 64, 0). -/
theorem cover (i : S4x1024x384.Idx) : ∃ t : Fin cfg0.N, (cfg0.win 8).flush t = true ∧ i ∈ ((cfg0.win 8).blk t).view.set := by
  have hi0 : (i 0).val < 4 := (i 0).isLt
  have hi1 : (i 1).val < 1024 := (i 1).isLt
  have hi2 : (i 2).val < 384 := (i 2).isLt
  obtain ⟨t, ht⟩ := idx_onto ⟨(i 0).val, hi0⟩ ⟨(i 1).val / 64, by omega⟩
  have q0 : win0_8.index t (0 : Fin 3) = (i 0).val := congrFun ht 0
  have q1 : win0_8.index t (1 : Fin 3) = (i 1).val / 64 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 64 ≤ (i 1).val ∧ (i 1).val < win0_8.index t (1 : Fin 3) * 64 + 64; omega
  | ⟨2, _⟩ => show win0_8.index t (2 : Fin 3) * 384 ≤ (i 2).val ∧ (i 2).val < win0_8.index t (2 : Fin 3) * 384 + 384; omega

/-- THE ARRAY after the run is `result` of the argument arrays. -/
theorem final (c : Dev nD) : (dats m 0 c).arrAt 8 cfg0.N = whole m c :=
  (dats m 0 c).arrAt_eq_of_cover 8 (whole m c) (fun t _ => flushed_eq m c t) cover

/-- The kernel's run: the result array ends at `result` of the arguments, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result array is `Cert.NeighborNorm.result` of its arguments.

  The reference's sum over the neighbour axis, read at (b, n, d), is `rowAgg` of the row (b, n): each contraction
  reads its left operand along the last axis of the row and its right operand down a column of the projection
  matrix, and the broadcasts of the centre row and of the mask read them at (b, n, d) and (b, n, k). The sums over the
  channel axis that follow read that neighbour sum along the row (b, n), so the rest is `rowNorm` of that row.
-/
import proofs.«123137_j24043226923188_1_alg».proof.Proof.Gen.ReferenceIdeal.Read
import proofs.«123137_j24043226923188_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NeighborNorm

/-! ## Where each operation reads its operands, at an index given by coordinates -/

section Indices
variable (b : Fin 4) (n : Fin 1024) (k : Fin 32) (d : Fin 384)

theorem lidx_proj (c : Fin 384) : lidx_main_v0 (ix4 b n k d) c = ix4 b n k c :=
  funext fun a => by match a with | ⟨0, _⟩ => rfl | ⟨1, _⟩ => rfl | ⟨2, _⟩ => rfl | ⟨3, _⟩ => rfl
theorem ridx_proj (c : Fin 384) : ridx_main_v0 (ix4 b n k d) c = ix2 c d :=
  funext fun a => by match a with | ⟨0, _⟩ => rfl | ⟨1, _⟩ => rfl
theorem lidx_gate (z : Fin 128) : lidx_main_v4 (ix4 b n k d) z = ix4 b n k z :=
  funext fun a => by match a with | ⟨0, _⟩ => rfl | ⟨1, _⟩ => rfl | ⟨2, _⟩ => rfl | ⟨3, _⟩ => rfl
theorem ridx_gate (z : Fin 128) : ridx_main_v4 (ix4 b n k d) z = ix2 z d :=
  funext fun a => by match a with | ⟨0, _⟩ => rfl | ⟨1, _⟩ => rfl
theorem idx_centre : idx_main_v1 (idx_main_v2 (ix4 b n k d)) = ix3 b n d :=
  funext fun a => by match a with | ⟨0, _⟩ => rfl | ⟨1, _⟩ => rfl | ⟨2, _⟩ => rfl
theorem idx_mask : idx_main_v6 (idx_main_v7 (ix4 b n k d)) = ix3 b n k :=
  funext fun a => by match a with | ⟨0, _⟩ => rfl | ⟨1, _⟩ => rfl | ⟨2, _⟩ => rfl
theorem idx_nbr : idx_main_v9 (ix3 b n d) k = ix4 b n k d :=
  funext fun a => by match a with | ⟨0, _⟩ => rfl | ⟨1, _⟩ => rfl | ⟨2, _⟩ => rfl | ⟨3, _⟩ => rfl
theorem idx_mean_row (e : Fin 384) : idx_main_v10 (idx_main_v11 (idx_main_v21 (ix3 b n d))) e = ix3 b n e :=
  funext fun a => by match a with | ⟨0, _⟩ => rfl | ⟨1, _⟩ => rfl | ⟨2, _⟩ => rfl
theorem idx_mean_row' (e e' : Fin 384) : idx_main_v10 (idx_main_v11 (idx_main_v14 (ix3 b n e))) e' = ix3 b n e' :=
  funext fun a => by match a with | ⟨0, _⟩ => rfl | ⟨1, _⟩ => rfl | ⟨2, _⟩ => rfl
theorem idx_var_row (e : Fin 384) : idx_main_v17 (idx_main_v18 (idx_main_v26 (ix3 b n d))) e = ix3 b n e :=
  funext fun a => by match a with | ⟨0, _⟩ => rfl | ⟨1, _⟩ => rfl | ⟨2, _⟩ => rfl
theorem idx_scale : idx_main_v28 (idx_main_v29 (ix3 b n d)) = ix1 d :=
  funext fun a => by match a with | ⟨0, _⟩ => rfl
theorem idx_shift : idx_main_v31 (idx_main_v32 (ix3 b n d)) = ix1 d :=
  funext fun a => by match a with | ⟨0, _⟩ => rfl

end Indices

variable (x0 : (⟨S4x1024x384, .f32⟩ : BufTy).Contents (Elt Ideal)) (x1 : (⟨S4x1024x32x384, .f32⟩ : BufTy).Contents (Elt Ideal))
  (x2 : (⟨S4x1024x32, .f32⟩ : BufTy).Contents (Elt Ideal)) (x3 : (⟨S4x1024x32x128, .f32⟩ : BufTy).Contents (Elt Ideal))
  (x4 : (⟨S384x384, .f32⟩ : BufTy).Contents (Elt Ideal)) (x5 : (⟨S128x384, .f32⟩ : BufTy).Contents (Elt Ideal))
  (x6 x7 : (⟨S384, .f32⟩ : BufTy).Contents (Elt Ideal))

/-- The reference's sum over the neighbour axis at (b, n, d) is the row (b, n)'s `rowAgg` at channel `d`. -/
theorem agg_at (b : Fin 4) (n : Fin 1024) (d : Fin 384) :
    val_main_v9 (F := Ideal) x0 x1 x2 x3 x4 x5 (ix3 b n d)
      = rowAgg (fun k c => x1 (ix4 b n k c)) (fun k z => x3 (ix4 b n k z)) (fun k => x2 (ix3 b n k))
          (fun e => x0 (ix3 b n e)) (fun c e => x4 (ix2 c e)) (fun z e => x5 (ix2 z e)) d := by
  rw [val_main_v9_apply, val_main_cst_apply]
  unfold rowAgg
  rw [show FloatOps.ofBits (F := Ideal) .f32 0x00000000#32 = 0 from Ideal.ofBits_zero_f32, zero_add]
  refine Finset.sum_congr rfl fun k _ => ?_
  rw [idx_nbr, val_main_v8_apply, val_main_v5_apply, val_main_v3_apply, val_main_v0_apply, val_main_v2_apply, val_main_v1_apply,
    val_main_v4_apply, val_main_v7_apply, val_main_v6_apply]
  simp only [lidx_proj, ridx_proj, lidx_gate, ridx_gate, idx_centre, idx_mask, Ideal.mulf_def, Ideal.subf_def]

/-- The reference's result at (b, n, d) is the layer norm of the row (b, n)'s neighbour sums, at channel `d`. -/
theorem norm_at (b : Fin 4) (n : Fin 1024) (d : Fin 384) :
    val_main_v33 (F := Ideal) x0 x1 x2 x3 x4 x5 x6 x7 (ix3 b n d)
      = rowNorm (fun e => val_main_v9 (F := Ideal) x0 x1 x2 x3 x4 x5 (ix3 b n e)) (fun e => x6 (ix1 e)) (fun e => x7 (ix1 e)) d := by
  unfold rowNorm rowVar rowMean
  simp only [val_main_v33_apply, val_main_v30_apply, val_main_v27_apply, val_main_v22_apply, val_main_v21_apply,
    val_main_v13_apply, val_main_v11_apply, val_main_v10_apply, val_main_v12_apply, val_main_cst_1_apply, val_main_cst_0_apply,
    val_main_v26_apply, val_main_v25_apply, val_main_v24_apply, val_main_v20_apply, val_main_v18_apply, val_main_v17_apply,
    val_main_cst_2_apply, val_main_v19_apply, val_main_cst_3_apply, val_main_v23_apply, val_main_cst_4_apply,
    val_main_v16_apply, val_main_v15_apply, val_main_v14_apply,
    val_main_v29_apply, val_main_v28_apply, val_main_v32_apply, val_main_v31_apply,
    idx_mean_row, idx_mean_row', idx_var_row, idx_scale, idx_shift,
    Ideal.addf_def, Ideal.subf_def, Ideal.mulf_def, Ideal.hostDivf_def, Ideal.hostUnary_rsqrt_def, Ideal.ofBits_def,
    Ideal.ofBits_zero_f32, zero_add]

/-- The reference's result array is `result` of its eight arguments. -/
theorem ref_is_result :
    val_main_v33 (F := Ideal) x0 x1 x2 x3 x4 x5 x6 x7 = result x0 x1 x2 x3 x4 x5 x6 x7 := by
  funext i
  obtain ⟨b, n, d, rfl⟩ : ∃ (b : Fin 4) (n : Fin 1024) (d : Fin 384), i = ix3 b n d := ⟨i 0, i 1, i 2, eq_ix3 i⟩
  rw [norm_at]
  unfold result
  exact congrArg (fun a => rowNorm a (fun e => x6 (ix1 e)) (fun e => x7 (ix1 e)) d)
    (funext fun e => agg_at x0 x1 x2 x3 x4 x5 b n e)

end Cert.ReferenceIdeal.RefValue

end
-- ==== Proof.lean ====
/-
  The kernel and its reference compute one function of their eight arguments, over the extended reals.

  For every batch b and position n the row (b, n) has a centre row s_i[b, n, ·] (384 channels), 32 neighbour rows
  s_ij[b, n, k, ·] (384 channels) with pair rows z_ij[b, n, k, ·] (128 channels) and a mask m_ij[b, n, k]. Both programs form

      a[d]  =  ∑ₖ ((∑_c s_ij[b, n, k, c] · W_s[c, d]) − s_i[b, n, d]) · (∑_z z_ij[b, n, k, z] · W_z[z, d]) · m_ij[b, n, k]

  and return its layer norm over the 384 channels, (a[d] − μ) · rsqrt (σ² + ε) · γ[d] + β[d], with μ and σ² the mean and
  the biased variance of a, the divisor 384 and ε the same two float literals in both programs
  (`Cert.NeighborNorm.result`, Proof/Spec.lean).

  The kernel does this 64 rows at a time on a 4 × 16 grid: it lays the 64 · 32 neighbour rows of a block out as one
  [2048, ·] matrix for the two products (row r · 32 + k of that matrix is neighbour k of row r), accumulates each product
  into zero, and narrows the operands to bf16 first, which changes nothing over the extended reals. The reference takes
  the two products over the whole [4, 1024, 32, ·] arrays. Both apply the same operations in the same order, so no sum
  is regrouped and nothing is distributed over a sum: the equality needs no finiteness of the inputs.

  Proof/KernelBlock.lean reads one grid point's block at an index, Proof/KernelArray.lean tiles the 64 blocks into the
  result array, Proof/RefValue.lean reads the reference's result at an index; here the two runs are set side by side.
-/
import proofs.«123137_j24043226923188_1_alg».proof.Defs
import proofs.«123137_j24043226923188_1_alg».proof.Proof.Gen.Kernel
import proofs.«123137_j24043226923188_1_alg».proof.Proof.Gen.Kernel.Skeleton
import proofs.«123137_j24043226923188_1_alg».proof.Proof.Gen.Kernel.Launch
import proofs.«123137_j24043226923188_1_alg».proof.Proof.Gen.Kernel.Points
import proofs.«123137_j24043226923188_1_alg».proof.Proof.Gen.Kernel.Frame
import proofs.«123137_j24043226923188_1_alg».proof.Proof.Gen.KernelIdeal
import proofs.«123137_j24043226923188_1_alg».proof.Proof.Gen.KernelIdeal.Skeleton
import proofs.«123137_j24043226923188_1_alg».proof.Proof.Gen.KernelIdeal.Launch
import proofs.«123137_j24043226923188_1_alg».proof.Proof.Gen.KernelIdeal.Points
import proofs.«123137_j24043226923188_1_alg».proof.Proof.Gen.KernelIdeal.Frame
import proofs.«123137_j24043226923188_1_alg».proof.Proof.Gen.ReferenceIdeal
import proofs.«123137_j24043226923188_1_alg».proof.Proof.Gen.Pre_finite_inputs
import proofs.«123137_j24043226923188_1_alg».proof.Proof.Gen.KernelIdeal.Value
import proofs.«123137_j24043226923188_1_alg».proof.Proof.Gen.ReferenceIdeal.Run
import proofs.«123137_j24043226923188_1_alg».proof.Proof.Gen.ReferenceIdeal.Read
import proofs.«123137_j24043226923188_1_alg».proof.Proof.KernelArray
import proofs.«123137_j24043226923188_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array ends at `result` of its arguments (Proof/KernelArray.lean), the reference's at `result` of
    its own (Proof/RefValue.lean), and the two sets of arguments agree. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_is_result]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
